-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x2048x64 : Shape := ⟨3, ![1, 2048, 64]⟩
abbrev S1x512x64 : Shape := ⟨3, ![1, 512, 64]⟩
abbrev S512x64 : Shape := ⟨2, ![512, 64]⟩
abbrev S512x1 : Shape := ⟨2, ![512, 1]⟩
abbrev S512x512 : Shape := ⟨2, ![512, 512]⟩
abbrev S512 : Shape := ⟨1, ![512]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x16x2048x64_S32x2048x64 : S2x16x2048x64.ShapeCasts S32x2048x64
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  bitsLt_bf16_f32 : FTy.bits .bf16 < FTy.bits .f32
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x64 : S512x1.Broadcasts S512x64
  shapeCasts_S512x64_S1x512x64 : S512x64.ShapeCasts S1x512x64
  inb_S1x2048x64_S1x512x64_0_512_0 : ∀ a, (![0, 512, 0] : Fin 3 → Nat) a + S1x512x64.size a ≤ S1x2048x64.size a
  inb_S1x2048x64_S1x512x64_0_1024_0 : ∀ a, (![0, 1024, 0] : Fin 3 → Nat) a + S1x512x64.size a ≤ S1x2048x64.size a
  inb_S1x2048x64_S1x512x64_0_1536_0 : ∀ a, (![0, 1536, 0] : Fin 3 → Nat) a + S1x512x64.size a ≤ S1x2048x64.size a
  shapeCasts_S32x2048x64_S2x16x2048x64 : S32x2048x64.ShapeCasts S2x16x2048x64
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S32x2048x64.size a
  hwx0_3 : ∀ i : grid0.Coords, EltTy.bits .f32 = 32 ∨ (Rect.block (s := S32x2048x64) S1x2048x64.size (cc0_transform_3 i) (hinb0_3 i)).WholeWords (EltTy.packing .f32)

variable [Facts₀]

def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S2x16x2048x2048, .f32⟩
  | .hbm, ⟨17, _⟩ => ⟨S2x16x2048x2048, .f32⟩
  | .hbm, ⟨18, _⟩ => ⟨S_, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S1x1x2048x2048, .i1⟩
  | .hbm, ⟨30, _⟩ => ⟨S_, .f32⟩
  | .hbm, ⟨31, _⟩ => ⟨S_, .f32⟩
  | .hbm, ⟨32, _⟩ => ⟨S2x16x2048x2048, .i1⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S2x16x2048x1, .f32⟩
  | .hbm, ⟨38, _⟩ => ⟨S_, .f32⟩
  | .hbm, ⟨39, _⟩ => ⟨S2x16x2048x1, .f32⟩
  | .hbm, ⟨40, _⟩ => ⟨S2x16x2048x1, .f32⟩
  | .hbm, ⟨41, _⟩ => ⟨S2x16x2048x64, .f32⟩
  | .hbm, ⟨42, _⟩ => ⟨S2x16x2048x64, .f32⟩
  | .hbm, ⟨43, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Based (Taylor-polynomial) causal linear attention, one head at a time, as ONE function of the head's
  query, key and value rows over the extended reals.

  For a head with rows `q i`, `k j`, `v j` (2048 rows of 64 features):
    score i j  = (∑ e, q i e · k j e) · c      (c the scale word, 1/8)
    poly s     = (1 + s) + (½ · s) · s         (second-order Taylor polynomial of exp)
    weight i j = poly (score i j) if j ≤ i, else 0      (causal mask)
    out i d    = (∑ j, weight i j · v j d) / (∑ j, weight i j + ε)
  The literals stay the binary words both programs print; only the scale is ever evaluated
  (`scale_eq`: 1 / √64 is the word 0.125).

  The row sums over 2048 columns split into four chunks of 512 columns (`sum_chunks`). For a row of
  query tile `qi`, chunk `c` lies wholly inside the mask when `c < qi`, wholly outside it when `qi < c`,
  and on the diagonal chunk `c = qi` the mask is `j ≤ r` on the positions inside the tile; so each row
  sum is the left-nested sum of its first `qi + 1` chunk sums (`num_tile0` … `den_tile3`).
-/
import Idealize.ShloMosaic.PureOps.Ideal
import Idealize.ShloMosaic.PureOps.Ideal.Laws
import Idealize.ShloMosaic.Lib.ValueIdx
import Idealize.ShloMosaic.Lib.IdealHost

noncomputable section

namespace Cert.BasedAttn

open Idealize.ShloMosaic Idealize.ShloMosaic.ValueIdx

/-! ## The literals, as the words both programs print -/

abbrev cScale : EReal := Ideal.ofBits .f32 0x3E000000#32
abbrev cOne : EReal := Ideal.ofBits .f32 0x3F800000#32
abbrev cHalf : EReal := Ideal.ofBits .f32 0x3F000000#32
abbrev cEps : EReal := Ideal.ofBits .f32 0x358637BD#32

/-! ## One head -/

/-- A head's rows: 2048 positions of 64 features. -/
abbrev Head : Type := Fin 2048 → Fin 64 → EReal

def score (q k : Head) (i j : Fin 2048) : EReal := (∑ e : Fin 64, q i e * k j e) * cScale

def poly (s : EReal) : EReal := (cOne + s) + (cHalf * s) * s

def weight (q k : Head) (i j : Fin 2048) : EReal := if j.val ≤ i.val then poly (score q k i j) else 0

def num (q k v : Head) (i : Fin 2048) (d : Fin 64) : EReal := ∑ j : Fin 2048, weight q k i j * v j d

def den (q k : Head) (i : Fin 2048) : EReal := ∑ j : Fin 2048, weight q k i j

def headOut (q k v : Head) (i : Fin 2048) (d : Fin 64) : EReal := Ideal.div (num q k v i d) (den q k i + cEps)

/-! ## Rows by chunk -/

/-- Position `j` of chunk `c`: row `512 c + j`. -/
def row (c : Fin 4) (j : Fin 512) : Fin 2048 := ⟨512 * c.val + j.val, by omega⟩

@[simp] theorem row_val (c : Fin 4) (j : Fin 512) : (row c j).val = 512 * c.val + j.val := rfl

/-- A sum over the 2048 rows is the sum over the four chunks of the sums over their 512 positions. -/
theorem sum_chunks (f : Fin 2048 → EReal) : ∑ j : Fin 2048, f j = ∑ c : Fin 4, ∑ j : Fin 512, f (row c j) := by
  rw [← Fintype.sum_prod_type' (fun (c : Fin 4) (j : Fin 512) => f (row c j))]
  refine (Fintype.sum_equiv (finProdFinEquiv (m := 4) (n := 512)) (fun x => f (row x.1 x.2)) f (fun x => ?_)).symm
  refine congrArg f (Fin.ext ?_)
  obtain ⟨c, j⟩ := x
  show 512 * c.val + j.val = j.val + 512 * c.val
  omega

/-! ## The mask on a tile's chunks -/

variable (q k v : Head)

theorem weight_below {qi c : Fin 4} (h : c.val < qi.val) (r j : Fin 512) :
    weight q k (row qi r) (row c j) = poly (score q k (row qi r) (row c j)) := by
  unfold weight
  rw [if_pos (by simp only [row_val]; omega)]

theorem weight_diag (qi : Fin 4) (r j : Fin 512) :
    weight q k (row qi r) (row qi j) = if j.val ≤ r.val then poly (score q k (row qi r) (row qi j)) else 0 := by
  unfold weight
  refine if_congr ?_ rfl rfl
  simp only [row_val]; omega

theorem weight_above {qi c : Fin 4} (h : qi.val < c.val) (r j : Fin 512) :
    weight q k (row qi r) (row c j) = 0 := by
  unfold weight
  rw [if_neg (by simp only [row_val]; omega)]

/-- Chunk `c`'s part of the numerator of row `r` of tile `qi`, and of its denominator. -/
def numChunk (qi c : Fin 4) (r : Fin 512) (d : Fin 64) : EReal :=
  ∑ j : Fin 512, weight q k (row qi r) (row c j) * v (row c j) d
def denChunk (qi c : Fin 4) (r : Fin 512) : EReal :=
  ∑ j : Fin 512, weight q k (row qi r) (row c j)

theorem numChunk_above {qi c : Fin 4} (h : qi.val < c.val) (r : Fin 512) (d : Fin 64) : numChunk q k v qi c r d = 0 :=
  Finset.sum_eq_zero fun j _ => by rw [weight_above q k h, zero_mul]
theorem denChunk_above {qi c : Fin 4} (h : qi.val < c.val) (r : Fin 512) : denChunk q k qi c r = 0 :=
  Finset.sum_eq_zero fun j _ => weight_above q k h r j

theorem num_chunks (qi : Fin 4) (r : Fin 512) (d : Fin 64) :
    num q k v (row qi r) d = numChunk q k v qi 0 r d + numChunk q k v qi 1 r d + numChunk q k v qi 2 r d + numChunk q k v qi 3 r d := by
  unfold num; rw [sum_chunks, Fin.sum_univ_four]; rfl
theorem den_chunks (qi : Fin 4) (r : Fin 512) :
    den q k (row qi r) = denChunk q k qi 0 r + denChunk q k qi 1 r + denChunk q k qi 2 r + denChunk q k qi 3 r := by
  unfold den; rw [sum_chunks, Fin.sum_univ_four]; rfl

/-! ## Each tile's row sums as the left-nested sum of its causal chunks, from zero -/

theorem num_tile0 (r : Fin 512) (d : Fin 64) : num q k v (row 0 r) d = 0 + numChunk q k v 0 0 r d := by
  rw [num_chunks, numChunk_above q k v (qi := 0) (c := 1) (by decide), numChunk_above q k v (qi := 0) (c := 2) (by decide),
    numChunk_above q k v (qi := 0) (c := 3) (by decide)]
  simp only [add_zero, zero_add]
theorem num_tile1 (r : Fin 512) (d : Fin 64) : num q k v (row 1 r) d = 0 + numChunk q k v 1 0 r d + numChunk q k v 1 1 r d := by
  rw [num_chunks, numChunk_above q k v (qi := 1) (c := 2) (by decide), numChunk_above q k v (qi := 1) (c := 3) (by decide)]
  simp only [add_zero, zero_add]
theorem num_tile2 (r : Fin 512) (d : Fin 64) :
    num q k v (row 2 r) d = 0 + numChunk q k v 2 0 r d + numChunk q k v 2 1 r d + numChunk q k v 2 2 r d := by
  rw [num_chunks, numChunk_above q k v (qi := 2) (c := 3) (by decide)]
  simp only [add_zero, zero_add]
theorem num_tile3 (r : Fin 512) (d : Fin 64) :
    num q k v (row 3 r) d = 0 + numChunk q k v 3 0 r d + numChunk q k v 3 1 r d + numChunk q k v 3 2 r d + numChunk q k v 3 3 r d := by
  rw [num_chunks]; simp only [zero_add]

theorem den_tile0 (r : Fin 512) : den q k (row 0 r) = 0 + denChunk q k 0 0 r := by
  rw [den_chunks, denChunk_above q k (qi := 0) (c := 1) (by decide), denChunk_above q k (qi := 0) (c := 2) (by decide),
    denChunk_above q k (qi := 0) (c := 3) (by decide)]
  simp only [add_zero, zero_add]
theorem den_tile1 (r : Fin 512) : den q k (row 1 r) = 0 + denChunk q k 1 0 r + denChunk q k 1 1 r := by
  rw [den_chunks, denChunk_above q k (qi := 1) (c := 2) (by decide), denChunk_above q k (qi := 1) (c := 3) (by decide)]
  simp only [add_zero, zero_add]
theorem den_tile2 (r : Fin 512) : den q k (row 2 r) = 0 + denChunk q k 2 0 r + denChunk q k 2 1 r + denChunk q k 2 2 r := by
  rw [den_chunks, denChunk_above q k (qi := 2) (c := 3) (by decide)]
  simp only [add_zero, zero_add]
theorem den_tile3 (r : Fin 512) :
    den q k (row 3 r) = 0 + denChunk q k 3 0 r + denChunk q k 3 1 r + denChunk q k 3 2 r + denChunk q k 3 3 r := by
  rw [den_chunks]; simp only [zero_add]

/-! ## The scale -/

theorem ofBits_64 : Ideal.ofBits .f32 0x42800000#32 = ((64 : ℝ) : EReal) := by
  simp [Ideal.ofBits, Ideal.ieee, -EReal.coe_mul]; norm_num
theorem ofBits_eighth : Ideal.ofBits .f32 0x3E000000#32 = (((1 : ℝ) / 8 : ℝ) : EReal) := by
  simp [Ideal.ofBits, Ideal.ieee, -EReal.coe_mul]; norm_num

/-- The reference's scale `1 / √64` is the kernel's word `0.125`: 64 is the square of 8. -/
theorem scale_eq : Ideal.div cOne (Ideal.sqrt (Ideal.ofBits .f32 0x42800000#32)) = cScale := by
  have h8 : Real.sqrt 64 = 8 := by
    rw [show (64 : ℝ) = 8 ^ 2 by norm_num]; exact Real.sqrt_sq (by norm_num)
  rw [ofBits_64, Ideal.sqrt_coe, if_neg (by norm_num), h8, Ideal.div_coe (by norm_num : (8 : ℝ) ≠ 0)]
  show Ideal.ofBits .f32 0x3F800000#32 * _ = Ideal.ofBits .f32 0x3E000000#32
  rw [Ideal.ofBits_one_f32, one_mul, ofBits_eighth]

/-! ## The arrays: the whole problem [2,16,2048,64], the stack of heads [32,2048,64], one head's block [1,2048,64] -/

abbrev A4 : Shape := ⟨4, ![2, 16, 2048, 64]⟩
abbrev A3 : Shape := ⟨3, ![32, 2048, 64]⟩
abbrev A1 : Shape := ⟨3, ![1, 2048, 64]⟩

def head4 (x : A4.Idx → EReal) (b : Fin 2) (h : Fin 16) : Head := fun i e => x (ix4 b h i e)
def head3 (x : A3.Idx → EReal) (g : Fin 32) : Head := fun i e => x (ix3 g i e)
def head1 (x : A1.Idx → EReal) : Head := fun i e => x (ix3 (0 : Fin 1) i e)

/-- The result over the whole problem: head `(b, h)`'s output at row `i`, feature `d`. -/
def out4 (q k v : A4.Idx → EReal) : A4.Idx → EReal := fun i =>
  headOut (head4 q ⟨(i 0).val, (i 0).isLt⟩ ⟨(i 1).val, (i 1).isLt⟩) (head4 k ⟨(i 0).val, (i 0).isLt⟩ ⟨(i 1).val, (i 1).isLt⟩)
    (head4 v ⟨(i 0).val, (i 0).isLt⟩ ⟨(i 1).val, (i 1).isLt⟩) ⟨(i 2).val, (i 2).isLt⟩ ⟨(i 3).val, (i 3).isLt⟩

/-- The result over the stack of 32 heads. -/
def out3 (q k v : A3.Idx → EReal) : A3.Idx → EReal := fun i =>
  headOut (head3 q ⟨(i 0).val, (i 0).isLt⟩) (head3 k ⟨(i 0).val, (i 0).isLt⟩) (head3 v ⟨(i 0).val, (i 0).isLt⟩)
    ⟨(i 1).val, (i 1).isLt⟩ ⟨(i 2).val, (i 2).isLt⟩

/-- The result over one head's block. -/
def out1 (q k v : A1.Idx → EReal) : A1.Idx → EReal := fun i =>
  headOut (head1 q) (head1 k) (head1 v) ⟨(i 1).val, (i 1).isLt⟩ ⟨(i 2).val, (i 2).isLt⟩

theorem out4_ix4 (q k v : A4.Idx → EReal) (b : Fin 2) (h : Fin 16) (i : Fin 2048) (d : Fin 64) :
    out4 q k v (ix4 b h i d) = headOut (head4 q b h) (head4 k b h) (head4 v b h) i d := rfl
theorem out3_ix3 (q k v : A3.Idx → EReal) (g : Fin 32) (i : Fin 2048) (d : Fin 64) :
    out3 q k v (ix3 g i d) = headOut (head3 q g) (head3 k g) (head3 v g) i d := rfl
theorem out1_ix3 (q k v : A1.Idx → EReal) (i : Fin 2048) (d : Fin 64) :
    out1 q k v (ix3 (0 : Fin 1) i d) = headOut (head1 q) (head1 k) (head1 v) i d := rfl

end Cert.BasedAttn

end
-- ==== Proof.RefValue.lean ====
/-
  The reference's result, index by index, is the specification's `out4`: for head (b, h), row i, feature d
  it is (∑ j, w i j · v j d) / (∑ j, w i j + ε) with w i j the Taylor polynomial of the scaled score where
  j ≤ i and zero elsewhere. The reference's scale 1 / √64 is the word 0.125 (`scale_eq`); its lower-
  triangular mask compares the row number with the column number as signed 32-bit words of numbers below 2048.
-/
import proofs.«429157_j29240137351230_3_alg».proof.Proof.Gen.ReferenceIdeal.Read
import proofs.«429157_j29240137351230_3_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Read

/-! ## The scale: 1 / √64 read at the scalar index is the word 0.125 -/

theorem scale_val (i : S_.Idx) : val_main_v1 (F := Ideal) i = Cert.BasedAttn.cScale := by
  rw [val_main_v1_apply, val_main_cst_0_apply, val_main_v0_apply, val_main_cst_apply]
  simp only [Ideal.hostDivf_def, Ideal.hostUnary_sqrt_def, Ideal.ofBits_def]
  exact Cert.BasedAttn.scale_eq

/-! ## The scaled score of row r against column j of head (b, h) -/

theorem score_val (q k : (⟨S2x16x2048x64, .f32⟩ : BufTy).Contents (Elt Ideal)) (b : Fin 2) (h : Fin 16) (r j : Fin 2048) :
    val_main_v4 (F := Ideal) q k (ix4 b h r j) =
      Cert.BasedAttn.score (Cert.BasedAttn.head4 q b h) (Cert.BasedAttn.head4 k b h) r j := by
  rw [val_main_v4_apply, val_main_v2_apply, val_main_v3_apply, scale_val, Ideal.mulf_def]
  unfold Cert.BasedAttn.score Cert.BasedAttn.head4
  refine congrArg (· * Cert.BasedAttn.cScale) (Finset.sum_congr rfl fun e _ => ?_)
  have el : lidx_main_v2 (ix4 b h r j) e = ix4 b h r e := funext fun a => Fin.ext (by
    match a with | ⟨0, _⟩ => rfl | ⟨1, _⟩ => rfl | ⟨2, _⟩ => rfl | ⟨3, _⟩ => rfl)
  have er : ridx_main_v2 (ix4 b h r j) e = ix4 b h j e := funext fun a => Fin.ext (by
    match a with | ⟨0, _⟩ => rfl | ⟨1, _⟩ => rfl | ⟨2, _⟩ => rfl | ⟨3, _⟩ => rfl)
  rw [el, er]

/-! ## The polynomial (1 + s) + (½ · s) · s of the scaled score, in the specification's association -/

theorem poly_val (q k : (⟨S2x16x2048x64, .f32⟩ : BufTy).Contents (Elt Ideal)) (i : S2x16x2048x2048.Idx) :
    val_main_v10 (F := Ideal) q k i = Cert.BasedAttn.poly (val_main_v4 (F := Ideal) q k i) := by
  rw [val_main_v10_apply, val_main_v6_apply, val_main_v9_apply, val_main_v8_apply, val_main_v5_apply, val_main_v7_apply,
    val_main_cst_1_apply, val_main_cst_2_apply]
  simp only [Ideal.addf_def, Ideal.mulf_def, Ideal.ofBits_def]
  rfl

/-! ## The mask: row number ≥ column number as signed words of numbers below 2048 -/

theorem toInt_small (n : Nat) (hn : n < 2048) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

theorem mask_bit (r j : Fin 2048) :
    IntOp.cmpi .sge (IntOp.addi (BitVec.ofNat 32 r.val) 0#32) (BitVec.ofNat 32 j.val) = 1#1 ↔ j.val ≤ r.val := by
  have h0 : IntOp.addi (BitVec.ofNat 32 r.val) 0#32 = BitVec.ofNat 32 r.val := BitVec.add_zero _
  rw [h0, IntOp.cmpi_sge, toInt_small _ r.isLt, toInt_small _ j.isLt]
  exact Int.ofNat_le

theorem mask_val (r j : Fin 2048) :
    val_main_v12 (F := Ideal) (ix2 r j) = if j.val ≤ r.val then 1#1 else 0#1 := by
  rw [val_main_v12_apply, val_main_call0_v4_apply, val_main_call0_v2_apply, val_main_call0_v0_apply, val_main_call0_v1_apply,
    val_main_call0_c_apply, val_main_call0_v3_apply, val_main_v11_apply, val_main_c_apply, val_main_call0_v5_apply,
    val_main_call0_c_0_apply]
  show Scalar.select (IntOp.cmpi .sge (IntOp.addi (BitVec.ofNat 32 r.val) 0#32) (BitVec.ofNat 32 j.val)) 1#1 0#1 = _
  by_cases hjr : j.val ≤ r.val
  · rw [if_pos hjr, (mask_bit r j).mpr hjr, select_one]
  · rw [if_neg hjr, eq_zero_of_ne_one (fun hh => hjr ((mask_bit r j).mp hh)), select_zero]

theorem mask4_val (b : Fin 2) (h : Fin 16) (r j : Fin 2048) :
    val_main_call1_v1 (F := Ideal) (ix4 b h r j) = if j.val ≤ r.val then 1#1 else 0#1 := by
  rw [val_main_call1_v1_apply, val_main_v13_apply]
  have e : idx_main_v13 (idx_main_call1_v1 (ix4 b h r j)) = ix2 r j := funext fun a => Fin.ext (by
    match a with | ⟨0, _⟩ => rfl | ⟨1, _⟩ => rfl)
  rw [e, mask_val]

/-! ## The weight: the polynomial inside the mask, zero outside -/

theorem zero_val (i : S2x16x2048x2048.Idx) : val_main_call1_v2 (F := Ideal) i = 0 := by
  rw [val_main_call1_v2_apply, val_main_call1_v0_apply, val_main_cst_3_apply, Ideal.ofBits_def, Ideal.ofBits_zero_f32]

theorem weight_val (q k : (⟨S2x16x2048x64, .f32⟩ : BufTy).Contents (Elt Ideal)) (b : Fin 2) (h : Fin 16) (r j : Fin 2048) :
    val_main_v14 (F := Ideal) q k (ix4 b h r j) =
      Cert.BasedAttn.weight (Cert.BasedAttn.head4 q b h) (Cert.BasedAttn.head4 k b h) r j := by
  rw [val_main_v14_apply, mask4_val, zero_val, poly_val, score_val]
  unfold Cert.BasedAttn.weight
  by_cases hjr : j.val ≤ r.val
  · rw [if_pos hjr, if_pos hjr, select_one]
  · rw [if_neg hjr, if_neg hjr, select_zero]

/-! ## Numerator and denominator -/

theorem num_val (q k v : (⟨S2x16x2048x64, .f32⟩ : BufTy).Contents (Elt Ideal)) (b : Fin 2) (h : Fin 16) (r : Fin 2048) (d : Fin 64) :
    val_main_v19 (F := Ideal) q k v (ix4 b h r d) =
      Cert.BasedAttn.num (Cert.BasedAttn.head4 q b h) (Cert.BasedAttn.head4 k b h) (Cert.BasedAttn.head4 v b h) r d := by
  rw [val_main_v19_apply]
  unfold Cert.BasedAttn.num
  refine Finset.sum_congr rfl fun j _ => ?_
  have el : lidx_main_v19 (ix4 b h r d) j = ix4 b h r j := funext fun a => Fin.ext (by
    match a with | ⟨0, _⟩ => rfl | ⟨1, _⟩ => rfl | ⟨2, _⟩ => rfl | ⟨3, _⟩ => rfl)
  have er : ridx_main_v19 (ix4 b h r d) j = ix4 b h j d := funext fun a => Fin.ext (by
    match a with | ⟨0, _⟩ => rfl | ⟨1, _⟩ => rfl | ⟨2, _⟩ => rfl | ⟨3, _⟩ => rfl)
  rw [el, er, weight_val]
  rfl

theorem den_val (q k : (⟨S2x16x2048x64, .f32⟩ : BufTy).Contents (Elt Ideal)) (b : Fin 2) (h : Fin 16) (r : Fin 2048) :
    val_main_v15 (F := Ideal) q k (ix3 b h r) =
      Cert.BasedAttn.den (Cert.BasedAttn.head4 q b h) (Cert.BasedAttn.head4 k b h) r := by
  rw [val_main_v15_apply, val_main_cst_4_apply, Ideal.ofBits_def, Ideal.ofBits_zero_f32, zero_add]
  unfold Cert.BasedAttn.den
  refine Finset.sum_congr rfl fun j _ => ?_
  have e : idx_main_v15 (ix3 b h r) j = ix4 b h r j := funext fun a => Fin.ext (by
    match a with | ⟨0, _⟩ => rfl | ⟨1, _⟩ => rfl | ⟨2, _⟩ => rfl | ⟨3, _⟩ => rfl)
  rw [e, weight_val]

/-- The reference's last stage is the specification. -/
theorem ref_eq (q k v : (⟨S2x16x2048x64, .f32⟩ : BufTy).Contents (Elt Ideal)) :
    val_main_v21 (F := Ideal) q k v = Cert.BasedAttn.out4 q k v := by
  funext i
  obtain ⟨b, h, r, d, rfl⟩ : ∃ (b : Fin 2) (h : Fin 16) (r : Fin 2048) (d : Fin 64), i = ix4 b h r d :=
    ⟨i 0, i 1, i 2, i 3, eq_ix4 i⟩
  rw [Cert.BasedAttn.out4_ix4]
  unfold Cert.BasedAttn.headOut
  rw [val_main_v21_apply, Ideal.hostDivf_def, num_val, val_main_v20_apply, val_main_v18_apply, val_main_v16_apply,
    val_main_v17_apply, val_main_cst_5_apply, Ideal.addf_def, Ideal.ofBits_def]
  have e : idx_main_v16 (idx_main_v20 (ix4 b h r d)) = ix3 b h r := funext fun a => Fin.ext (by
    match a with | ⟨0, _⟩ => rfl | ⟨1, _⟩ => rfl | ⟨2, _⟩ => rfl)
  rw [e, den_val]

end Cert.ReferenceIdeal.RefValue

end
-- ==== Proof.Steps.lean ====
/-
  One head's block of the kernel, restated: the four stored tiles of the output block as compositions of
  the same few steps.

  For query tile `qi` (rows 512·qi … 512·qi + 511 of the head) the body visits key/value chunks
  `c = 0 … qi`. For each it forms the tile's weights — the Taylor polynomial of the scaled scores
  (`wOff`), masked to columns `j ≤ r` on the diagonal chunk `c = qi` (`wDiag`: the row and column
  numbers carry the same offset 512·qi) —, adds their row sums to the running denominator (`normStep`)
  and their product with the value chunk to the running numerator (`accStep`), both started at zero,
  and stores numerator / (denominator + ε) (`finishT`). The body's text cuts these computations
  differently for each tile; `block_eq` says the block it leaves is the four tiles below.
-/
import proofs.«429157_j29240137351230_3_alg».proof.Proof.Gen.KernelIdeal.Frame

set_option maxRecDepth 16384

noncomputable section

namespace Cert.KernelIdeal.Steps

open Idealize.ShloMosaic Idealize.ShloMosaic.TcCoe Idealize.SL.Sem
open Cert.KernelIdeal Cert.KernelIdeal.Gen

variable {F : FTy → Type} [FloatOps F]

/-- A loaded [1,512,64] chunk as a 512×64 matrix (narrowed for the matrix unit). -/
def rowsOf (b : Vec F S1x512x64 .f32) : FVec F S512x64 .bf16 :=
  truncf .bf16 (shapeCast S512x64 b shapeCasts_S1x512x64_S512x64) bitsLt_bf16_f32

/-- Scaled scores of a query tile against a key chunk. -/
def scoreT (qh : FVec F S512x64 .bf16) (kb : Vec F S1x512x64 .f32) : FVec F S512x512 .f32 :=
  mulf (matmul dot_S512x64_S512x64_S512x512_1_1_0_0_n_n none qh (rowsOf kb) (constant S512x512 .f32 0x00000000#32))
    (broadcast S512x512 (Scalar.ofBits .f32 0x3E000000#32))

/-- The second-order Taylor polynomial, entry by entry: (1 + s) + (½ · s) · s. -/
def polyT (s : FVec F S512x512 .f32) : FVec F S512x512 .f32 :=
  addf (addf (broadcast S512x512 (Scalar.ofBits .f32 0x3F800000#32)) s)
    (mulf (mulf (broadcast S512x512 (Scalar.ofBits .f32 0x3F000000#32)) s) s)

/-- The causal mask on a diagonal chunk: keep entry (r, j) when row number off + r ≥ column number off + j. -/
def maskT (off : BitVec 32) (p : FVec F S512x512 .f32) : FVec F S512x512 .f32 :=
  select (cmpi .sge (addi (broadcast S512x512 off) (iota .tc S512x512 32 [0] iota_S512x512_d0_w32))
      (addi (broadcast S512x512 off) (iota .tc S512x512 32 [1] iota_S512x512_d1_w32))) p
    (broadcast S512x512 (Scalar.ofBits .f32 0x00000000#32))

/-- Weights of a chunk below the diagonal, and of the diagonal chunk. -/
def wOff (qb kb : Vec F S1x512x64 .f32) : FVec F S512x512 .f32 := polyT (scoreT (rowsOf qb) kb)
def wDiag (off : BitVec 32) (qb kb : Vec F S1x512x64 .f32) : FVec F S512x512 .f32 := maskT off (polyT (scoreT (rowsOf qb) kb))

/-- The running denominator takes the weights' row sums. -/
def normStep (n : FVec F S512x1 .f32) (p : FVec F S512x512 .f32) : FVec F S512x1 .f32 :=
  addf n (shapeCast S512x1 (multiReduction .add [1] S512 p 0x00000000#32 reduces_S512x512_S512 (.inl rfl) rfl) shapeCasts_S512_S512x1)

/-- The running numerator takes the weights times the value chunk. -/
def accStep (a : FVec F S512x64 .f32) (p : FVec F S512x512 .f32) (vb : Vec F S1x512x64 .f32) : FVec F S512x64 .f32 :=
  addf a (matmul dot_S512x512_S512x64_S512x64_1_0_0_1_n_n none (truncf .bf16 p bitsLt_bf16_f32) (rowsOf vb) (constant S512x64 .f32 0x00000000#32))

/-- Numerator over (denominator + ε), as a [1,512,64] tile. -/
def finishT (a : FVec F S512x64 .f32) (n : FVec F S512x1 .f32) : FVec F S1x512x64 .f32 :=
  shapeCast S1x512x64 (divf a (broadcastTo S512x64 (addf n (broadcast S512x1 (Scalar.ofBits .f32 0x358637BD#32))) broadcasts_S512x1_S512x64))
    shapeCasts_S512x64_S1x512x64

def zero64 : FVec F S512x64 .f32 := broadcast S512x64 (Scalar.ofBits .f32 0x00000000#32)
def zero1 : FVec F S512x1 .f32 := broadcast S512x1 (Scalar.ofBits .f32 0x00000000#32)

/-! ## The four tiles -/

variable (x0 x1 x2 : Vec F S1x2048x64 .f32)

def tile0 : FVec F S1x512x64 .f32 :=
  finishT (accStep zero64 (wDiag 0#32 (View.ld x0 r0_0) (View.ld x1 r0_0)) (View.ld x2 r0_0))
    (normStep zero1 (wDiag 0#32 (View.ld x0 r0_0) (View.ld x1 r0_0)))

def tile1 : FVec F S1x512x64 .f32 :=
  finishT (accStep (accStep zero64 (wOff (View.ld x0 r0_1) (View.ld x1 r0_0)) (View.ld x2 r0_0))
      (wDiag 512#32 (View.ld x0 r0_1) (View.ld x1 r0_1)) (View.ld x2 r0_1))
    (normStep (normStep zero1 (wOff (View.ld x0 r0_1) (View.ld x1 r0_0))) (wDiag 512#32 (View.ld x0 r0_1) (View.ld x1 r0_1)))

def tile2 : FVec F S1x512x64 .f32 :=
  finishT (accStep (accStep (accStep zero64 (wOff (View.ld x0 r0_2) (View.ld x1 r0_0)) (View.ld x2 r0_0))
      (wOff (View.ld x0 r0_2) (View.ld x1 r0_1)) (View.ld x2 r0_1))
      (wDiag 1024#32 (View.ld x0 r0_2) (View.ld x1 r0_2)) (View.ld x2 r0_2))
    (normStep (normStep (normStep zero1 (wOff (View.ld x0 r0_2) (View.ld x1 r0_0))) (wOff (View.ld x0 r0_2) (View.ld x1 r0_1)))
      (wDiag 1024#32 (View.ld x0 r0_2) (View.ld x1 r0_2)))

def tile3 : FVec F S1x512x64 .f32 :=
  finishT (accStep (accStep (accStep (accStep zero64 (wOff (View.ld x0 r0_3) (View.ld x1 r0_0)) (View.ld x2 r0_0))
      (wOff (View.ld x0 r0_3) (View.ld x1 r0_1)) (View.ld x2 r0_1))
      (wOff (View.ld x0 r0_3) (View.ld x1 r0_2)) (View.ld x2 r0_2))
      (wDiag 1536#32 (View.ld x0 r0_3) (View.ld x1 r0_3)) (View.ld x2 r0_3))
    (normStep (normStep (normStep (normStep zero1 (wOff (View.ld x0 r0_3) (View.ld x1 r0_0))) (wOff (View.ld x0 r0_3) (View.ld x1 r0_1)))
      (wOff (View.ld x0 r0_3) (View.ld x1 r0_2))) (wDiag 1536#32 (View.ld x0 r0_3) (View.ld x1 r0_3)))

/-- The block the body leaves is the four tiles, each at its rows. -/
theorem block_eq : out0_3 x0 x1 x2 =
    View.canon [⟨r0_3, tile3 x0 x1 x2⟩, ⟨r0_2, tile2 x0 x1 x2⟩, ⟨r0_1, tile1 x0 x1 x2⟩, ⟨r0_0, tile0 x0 x1 x2⟩] := rfl

end Cert.KernelIdeal.Steps

end
-- ==== Proof.StepsAt.lean ====
/-
  Each step of one (tile, chunk) pair read at an index, over the extended reals.

  Scores: entry (r, j) of a query tile against a key chunk is (∑ e, q r e · k j e) · c — the matrix unit's
  product into a zero accumulator is the plain sum over the 64 features, and narrowing to bf16 is the identity.
  Weights: the Taylor polynomial of that, and on a diagonal chunk the mask: with row and column numbers
  off + r and off + j (off + 512 ≤ 2³¹, so the signed 32-bit comparison is the comparison of the numbers)
  the entry is kept exactly when j ≤ r, and is zero otherwise.
  The running denominator gains the weights' sum along the row; the running numerator gains
  ∑ j, w r j · v j d; the stored tile is numerator / (denominator + ε).
-/
import proofs.«429157_j29240137351230_3_alg».proof.Proof.Steps
import proofs.«429157_j29240137351230_3_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384

noncomputable section

namespace Cert.KernelIdeal.Steps

open Idealize.ShloMosaic Idealize.ShloMosaic.TcCoe Idealize.SL.Sem Idealize.ShloMosaic.ValueIdx
open Cert.KernelIdeal Cert.KernelIdeal.Gen

/-! ## A loaded chunk as a matrix -/

theorem rowsOf_apply (b : Vec Ideal S1x512x64 .f32) (r : Fin 512) (e : Fin 64) :
    rowsOf (F := Ideal) b (ix2 r e) = b (ix3 (0 : Fin 1) r e) := by
  unfold rowsOf
  show shapeCast S512x64 b shapeCasts_S1x512x64_S512x64 (ix2 r e) = _
  exact shapeCast_1ab_ab_apply b shapeCasts_S1x512x64_S512x64 r e

/-! ## The two matrix products: which operand entries meet at an output entry -/

theorem scoreL_0 (i : S512x512.Idx) (q : dot_S512x64_S512x64_S512x512_1_1_0_0_n_n.contr.Idx) : (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem scoreL_1 (i : S512x512.Idx) (q : dot_S512x64_S512x64_S512x512_1_1_0_0_n_n.contr.Idx) : (dot_S512x64_S512x64_S512x512_1_1_0_0_n_n.lhsIdx i q 1).val = (q ⟨0, by decide⟩).val :=
  dot_S512x64_S512x64_S512x512_1_1_0_0_n_n.lhsIdx_val_of_single rfl i q
theorem scoreR_0 (i : S512x512.Idx) (q : dot_S512x64_S512x64_S512x512_1_1_0_0_n_n.contr.Idx) : (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem scoreR_1 (i : S512x512.Idx) (q : dot_S512x64_S512x64_S512x512_1_1_0_0_n_n.contr.Idx) : (dot_S512x64_S512x64_S512x512_1_1_0_0_n_n.rhsIdx i q 1).val = (q ⟨0, by decide⟩).val :=
  dot_S512x64_S512x64_S512x512_1_1_0_0_n_n.rhsIdx_val_of_single rfl i q

theorem mixL_0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem mixL_1 (i : S512x64.Idx) (q : dot_S512x512_S512x64_S512x64_1_0_0_1_n_n.contr.Idx) : (dot_S512x512_S512x64_S512x64_1_0_0_1_n_n.lhsIdx i q 1).val = (q ⟨0, by decide⟩).val :=
  dot_S512x512_S512x64_S512x64_1_0_0_1_n_n.lhsIdx_val_of_single rfl i q
theorem mixR_0 (i : S512x64.Idx) (q : dot_S512x512_S512x64_S512x64_1_0_0_1_n_n.contr.Idx) : (dot_S512x512_S512x64_S512x64_1_0_0_1_n_n.rhsIdx i q 0).val = (q ⟨0, by decide⟩).val :=
  dot_S512x512_S512x64_S512x64_1_0_0_1_n_n.rhsIdx_val_of_single rfl i q
theorem mixR_1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Scaled scores: entry (r, j) is the dot product of query row r and key row j, times the scale. -/
theorem scoreT_apply (qh : FVec Ideal S512x64 .bf16) (kb : Vec Ideal S1x512x64 .f32) (r j : Fin 512) :
    scoreT (F := Ideal) qh kb (ix2 r j)
      = (∑ e : Fin 64, qh (ix2 r e) * kb (ix3 (0 : Fin 1) j e)) * Ideal.ofBits .f32 0x3E000000#32 := by
  unfold scoreT
  rw [mulf_apply]
  refine congrArg₂ (· * ·) ?_ rfl
  simp only [matmul]
  rw [Ideal.matmul_constant_zero_apply, ← Equiv.sum_comp (contrEquiv1 dot_S512x64_S512x64_S512x512_1_1_0_0_n_n 64 rfl rfl).symm]
  refine Finset.sum_congr rfl fun e _ => ?_
  have hk := contrEquiv1_symm_val dot_S512x64_S512x64_S512x512_1_1_0_0_n_n 64 rfl rfl e
  have el : dot_S512x64_S512x64_S512x512_1_1_0_0_n_n.lhsIdx (ix2 r j) ((contrEquiv1 dot_S512x64_S512x64_S512x512_1_1_0_0_n_n 64 rfl rfl).symm e) = ix2 r e := funext fun a => Fin.ext (by
    match a with
    | ⟨0, _⟩ => exact scoreL_0 _ _
    | ⟨1, _⟩ => exact (scoreL_1 _ _).trans hk)
  have er : dot_S512x64_S512x64_S512x512_1_1_0_0_n_n.rhsIdx (ix2 r j) ((contrEquiv1 dot_S512x64_S512x64_S512x512_1_1_0_0_n_n 64 rfl rfl).symm e) = ix2 j e := funext fun a => Fin.ext (by
    match a with
    | ⟨0, _⟩ => exact scoreR_0 _ _
    | ⟨1, _⟩ => exact (scoreR_1 _ _).trans hk)
  rw [el, er, rowsOf_apply]

/-! ## The polynomial and the mask -/

theorem polyT_apply (s : FVec Ideal S512x512 .f32) (i : S512x512.Idx) :
    polyT (F := Ideal) s i = Cert.BasedAttn.poly (s i) := rfl

/-- Adding a position below 512 to an offset that leaves room for it does not wrap, and reads as a natural number. -/
theorem toInt_off_add (off : BitVec 32) (hoff : off.toNat + 512 ≤ 2 ^ 31) (x : Fin 512) :
    (IntOp.addi off (BitVec.ofNat 32 x.val)).toInt = ((off.toNat + x.val : ℕ) : ℤ) := by
  have hx := x.isLt
  have h1 : (IntOp.addi off (BitVec.ofNat 32 x.val)).toNat = off.toNat + x.val := by
    show (off + BitVec.ofNat 32 x.val).toNat = _
    rw [BitVec.toNat_add, BitVec.toNat_ofNat]; omega
  have h2 := BitVec.toInt_eq_toNat_cond (IntOp.addi off (BitVec.ofNat 32 x.val))
  rw [h1] at h2
  rw [h2, if_pos (by omega)]

/-- The mask on a diagonal chunk keeps entry (r, j) exactly when j ≤ r. -/
theorem maskT_apply (off : BitVec 32) (hoff : off.toNat + 512 ≤ 2 ^ 31) (p : FVec Ideal S512x512 .f32) (r j : Fin 512) :
    maskT (F := Ideal) off p (ix2 r j) = if j.val ≤ r.val then p (ix2 r j) else 0 := by
  unfold maskT
  rw [select_apply]
  show Scalar.select (IntOp.cmpi .sge (IntOp.addi off (iota .tc S512x512 32 [0] iota_S512x512_d0_w32 (ix2 r j)))
      (IntOp.addi off (iota .tc S512x512 32 [1] iota_S512x512_d1_w32 (ix2 r j)))) (p (ix2 r j)) (Ideal.ofBits .f32 0x00000000#32) = _
  rw [iota_single_apply, iota_single_apply, Ideal.ofBits_zero_f32]
  show (if IntOp.cmpi .sge (IntOp.addi off (BitVec.ofNat 32 r.val)) (IntOp.addi off (BitVec.ofNat 32 j.val)) = 1 then _ else _) = _
  refine if_congr ?_ rfl rfl
  change IntOp.cmpi .sge (IntOp.addi off (BitVec.ofNat 32 r.val)) (IntOp.addi off (BitVec.ofNat 32 j.val)) = 1#1 ↔ _
  rw [IntOp.cmpi_sge, toInt_off_add off hoff r, toInt_off_add off hoff j]
  omega

/-! ## The running sums and the stored tile -/

theorem lift_row (r : Fin 512) (k : Fin (S512x512.size 1)) :
    reduces_S512x512_S512.lift (ix1 r) k = ix2 r (⟨k.val, k.isLt⟩ : Fin 512) := by
  funext c; apply Fin.ext
  fin_cases c <;> rfl

/-- The denominator gains the weights' sum along row r. -/
theorem normStep_apply (n : FVec Ideal S512x1 .f32) (p : FVec Ideal S512x512 .f32) (r : Fin 512) :
    normStep (F := Ideal) n p (ix2 r (0 : Fin 1)) = n (ix2 r (0 : Fin 1)) + ∑ j : Fin 512, p (ix2 r j) := by
  unfold normStep
  rw [addf_apply]
  refine congrArg (n (ix2 r (0 : Fin 1)) + ·) ?_
  refine (shapeCast_apply _ shapeCasts_S512_S512x1 (ix2 r (0 : Fin 1)) (ix1 r) (by
    rw [Shape.rowMajor_val_one, Shape.rowMajor_val_two]
    show r.val = r.val * 1 + 0
    omega)).trans ?_
  refine (Ideal.multiReduction_add_single p 0x00000000#32 reduces_S512x512_S512 (.inl rfl) rfl (ix1 r)).trans ?_
  exact Finset.sum_congr rfl fun k _ => (congrArg p (lift_row r k)).trans rfl

/-- The numerator gains ∑ j, w r j · v j d. -/
theorem accStep_apply (a : FVec Ideal S512x64 .f32) (p : FVec Ideal S512x512 .f32) (vb : Vec Ideal S1x512x64 .f32)
    (r : Fin 512) (d : Fin 64) :
    accStep (F := Ideal) a p vb (ix2 r d) = a (ix2 r d) + ∑ j : Fin 512, p (ix2 r j) * vb (ix3 (0 : Fin 1) j d) := by
  unfold accStep
  rw [addf_apply]
  refine congrArg (a (ix2 r d) + ·) ?_
  simp only [matmul]
  rw [Ideal.matmul_constant_zero_apply, ← Equiv.sum_comp (contrEquiv1 dot_S512x512_S512x64_S512x64_1_0_0_1_n_n 512 rfl rfl).symm]
  refine Finset.sum_congr rfl fun j _ => ?_
  have hk := contrEquiv1_symm_val dot_S512x512_S512x64_S512x64_1_0_0_1_n_n 512 rfl rfl j
  have el : dot_S512x512_S512x64_S512x64_1_0_0_1_n_n.lhsIdx (ix2 r d) ((contrEquiv1 dot_S512x512_S512x64_S512x64_1_0_0_1_n_n 512 rfl rfl).symm j) = ix2 r j := funext fun a => Fin.ext (by
    match a with
    | ⟨0, _⟩ => exact mixL_0 _ _
    | ⟨1, _⟩ => exact (mixL_1 _ _).trans hk)
  have er : dot_S512x512_S512x64_S512x64_1_0_0_1_n_n.rhsIdx (ix2 r d) ((contrEquiv1 dot_S512x512_S512x64_S512x64_1_0_0_1_n_n 512 rfl rfl).symm j) = ix2 j d := funext fun a => Fin.ext (by
    match a with
    | ⟨0, _⟩ => exact (mixR_0 _ _).trans hk
    | ⟨1, _⟩ => exact mixR_1 _ _)
  rw [el, er, rowsOf_apply]
  rfl

/-- The stored tile: numerator over denominator plus ε. -/
theorem finishT_apply (a : FVec Ideal S512x64 .f32) (n : FVec Ideal S512x1 .f32) (r : Fin 512) (d : Fin 64) :
    finishT (F := Ideal) a n (ix3 (0 : Fin 1) r d)
      = Ideal.div (a (ix2 r d)) (n (ix2 r (0 : Fin 1)) + Ideal.ofBits .f32 0x358637BD#32) := by
  unfold finishT
  rw [shapeCast_ab_1ab_apply _ shapeCasts_S512x64_S1x512x64 (0 : Fin 1) r d, divf_apply]
  refine congrArg (Ideal.div (a (ix2 r d))) ?_
  exact broadcastTo_apply _ broadcasts_S512x1_S512x64 (ix2 r d) (ix2 r (0 : Fin 1)) (fun ax => by
    match ax with
    | ⟨0, _⟩ => show r.val = if (512 : Nat) = 1 then 0 else r.val; rw [if_neg (by decide)]
    | ⟨1, _⟩ => show 0 = if (1 : Nat) = 1 then 0 else d.val; rw [if_pos rfl])

theorem zero64_apply (i : S512x64.Idx) : zero64 (F := Ideal) i = 0 := Ideal.ofBits_zero_f32
theorem zero1_apply (i : S512x1.Idx) : zero1 (F := Ideal) i = 0 := Ideal.ofBits_zero_f32

/-! ## A chunk's weights from the loaded blocks -/

theorem wOff_apply (qb kb : Vec Ideal S1x512x64 .f32) (r j : Fin 512) :
    wOff (F := Ideal) qb kb (ix2 r j)
      = Cert.BasedAttn.poly ((∑ e : Fin 64, qb (ix3 (0 : Fin 1) r e) * kb (ix3 (0 : Fin 1) j e)) * Cert.BasedAttn.cScale) := by
  unfold wOff
  rw [polyT_apply, scoreT_apply]
  refine congrArg (fun s => Cert.BasedAttn.poly (s * Cert.BasedAttn.cScale)) (Finset.sum_congr rfl fun e _ => ?_)
  rw [rowsOf_apply]

theorem wDiag_apply (off : BitVec 32) (hoff : off.toNat + 512 ≤ 2 ^ 31) (qb kb : Vec Ideal S1x512x64 .f32) (r j : Fin 512) :
    wDiag (F := Ideal) off qb kb (ix2 r j)
      = if j.val ≤ r.val then
          Cert.BasedAttn.poly ((∑ e : Fin 64, qb (ix3 (0 : Fin 1) r e) * kb (ix3 (0 : Fin 1) j e)) * Cert.BasedAttn.cScale)
        else 0 := by
  show maskT off (wOff qb kb) (ix2 r j) = _
  rw [maskT_apply off hoff, wOff_apply]

end Cert.KernelIdeal.Steps

end
-- ==== Proof.Tile.lean ====
/-
  Each stored tile, at row r and feature d, is the head's attention output at row 512·qi + r.

  A chunk loaded from rows 512·c … of a head's block is those rows of the head (`ld_r0_c`). So the weights the
  body forms for tile qi against chunk c are the specification's weights on those rows and columns: the bare
  polynomial below the diagonal, where the mask holds everywhere, and the polynomial masked to j ≤ r on the
  diagonal (`chunk_off_*`, `chunk_diag_*`); the running sums from zero are then the left-nested chunk sums
  that the specification's row sums regroup into (`num_tileN`, `den_tileN`).
-/
import proofs.«429157_j29240137351230_3_alg».proof.Proof.StepsAt

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.KernelIdeal.Steps Cert.BasedAttn

/-! ## A loaded chunk is 512 rows of the head -/

theorem ld_r0_0 (x : Vec Ideal S1x2048x64 .f32) (j : Fin 512) (e : Fin 64) :
    View.ld x r0_0 (ix3 (0 : Fin 1) j e) = head1 x (row 0 j) e := by
  show x (r0_0.emb (ix3 (0 : Fin 1) j e)) = x (ix3 (0 : Fin 1) (row 0 j) e)
  refine congrArg x (funext fun a => Fin.ext ?_)
  match a with
  | ⟨0, _⟩ => show 0 + 1 * 0 = 0; rfl
  | ⟨1, _⟩ => show 0 + 1 * j.val = 512 * 0 + j.val; omega
  | ⟨2, _⟩ => show 0 + 1 * e.val = e.val; omega
theorem ld_r0_1 (x : Vec Ideal S1x2048x64 .f32) (j : Fin 512) (e : Fin 64) :
    View.ld x r0_1 (ix3 (0 : Fin 1) j e) = head1 x (row 1 j) e := by
  show x (r0_1.emb (ix3 (0 : Fin 1) j e)) = x (ix3 (0 : Fin 1) (row 1 j) e)
  refine congrArg x (funext fun a => Fin.ext ?_)
  match a with
  | ⟨0, _⟩ => show 0 + 1 * 0 = 0; rfl
  | ⟨1, _⟩ => show 512 + 1 * j.val = 512 * 1 + j.val; omega
  | ⟨2, _⟩ => show 0 + 1 * e.val = e.val; omega
theorem ld_r0_2 (x : Vec Ideal S1x2048x64 .f32) (j : Fin 512) (e : Fin 64) :
    View.ld x r0_2 (ix3 (0 : Fin 1) j e) = head1 x (row 2 j) e := by
  show x (r0_2.emb (ix3 (0 : Fin 1) j e)) = x (ix3 (0 : Fin 1) (row 2 j) e)
  refine congrArg x (funext fun a => Fin.ext ?_)
  match a with
  | ⟨0, _⟩ => show 0 + 1 * 0 = 0; rfl
  | ⟨1, _⟩ => show 1024 + 1 * j.val = 512 * 2 + j.val; omega
  | ⟨2, _⟩ => show 0 + 1 * e.val = e.val; omega
theorem ld_r0_3 (x : Vec Ideal S1x2048x64 .f32) (j : Fin 512) (e : Fin 64) :
    View.ld x r0_3 (ix3 (0 : Fin 1) j e) = head1 x (row 3 j) e := by
  show x (r0_3.emb (ix3 (0 : Fin 1) j e)) = x (ix3 (0 : Fin 1) (row 3 j) e)
  refine congrArg x (funext fun a => Fin.ext ?_)
  match a with
  | ⟨0, _⟩ => show 0 + 1 * 0 = 0; rfl
  | ⟨1, _⟩ => show 1536 + 1 * j.val = 512 * 3 + j.val; omega
  | ⟨2, _⟩ => show 0 + 1 * e.val = e.val; omega

/-! ## A chunk's sums -/

section Chunk

variable (q k v : Head) (qi c : Fin 4) (qb kb vb : Vec Ideal S1x512x64 .f32)
  (hq : ∀ r e, qb (ix3 (0 : Fin 1) r e) = q (row qi r) e)
  (hk : ∀ j e, kb (ix3 (0 : Fin 1) j e) = k (row c j) e)
  (hv : ∀ j d, vb (ix3 (0 : Fin 1) j d) = v (row c j) d)

include hq hk in
/-- Below the diagonal the body's weights are the specification's. -/
theorem wOff_eq (hc : c.val < qi.val) (r j : Fin 512) : wOff (F := Ideal) qb kb (ix2 r j) = weight q k (row qi r) (row c j) := by
  rw [wOff_apply, weight_below q k hc]
  unfold score
  simp only [hq, hk]

include hq hk hv in
theorem chunk_off_num (hc : c.val < qi.val) (r : Fin 512) (d : Fin 64) :
    (∑ j : Fin 512, wOff (F := Ideal) qb kb (ix2 r j) * vb (ix3 (0 : Fin 1) j d)) = numChunk q k v qi c r d :=
  Finset.sum_congr rfl fun j _ => by rw [wOff_eq q k qi c qb kb hq hk hc, hv]

include hq hk in
theorem chunk_off_den (hc : c.val < qi.val) (r : Fin 512) :
    (∑ j : Fin 512, wOff (F := Ideal) qb kb (ix2 r j)) = denChunk q k qi c r :=
  Finset.sum_congr rfl fun j _ => wOff_eq q k qi c qb kb hq hk hc r j

end Chunk

section Diag

variable (q k v : Head) (qi : Fin 4) (off : BitVec 32) (hoff : off.toNat + 512 ≤ 2 ^ 31) (qb kb vb : Vec Ideal S1x512x64 .f32)
  (hq : ∀ r e, qb (ix3 (0 : Fin 1) r e) = q (row qi r) e)
  (hk : ∀ j e, kb (ix3 (0 : Fin 1) j e) = k (row qi j) e)
  (hv : ∀ j d, vb (ix3 (0 : Fin 1) j d) = v (row qi j) d)

include hoff hq hk in
/-- On the diagonal the body's masked weights are the specification's. -/
theorem wDiag_eq (r j : Fin 512) : wDiag (F := Ideal) off qb kb (ix2 r j) = weight q k (row qi r) (row qi j) := by
  rw [wDiag_apply off hoff, weight_diag q k]
  unfold score
  simp only [hq, hk]

include hoff hq hk hv in
theorem chunk_diag_num (r : Fin 512) (d : Fin 64) :
    (∑ j : Fin 512, wDiag (F := Ideal) off qb kb (ix2 r j) * vb (ix3 (0 : Fin 1) j d)) = numChunk q k v qi qi r d :=
  Finset.sum_congr rfl fun j _ => by rw [wDiag_eq q k qi off hoff qb kb hq hk, hv]

include hoff hq hk in
theorem chunk_diag_den (r : Fin 512) :
    (∑ j : Fin 512, wDiag (F := Ideal) off qb kb (ix2 r j)) = denChunk q k qi qi r :=
  Finset.sum_congr rfl fun j _ => wDiag_eq q k qi off hoff qb kb hq hk r j

end Diag

/-! ## The four tiles -/

variable (x0 x1 x2 : Vec Ideal S1x2048x64 .f32)

theorem tile0_apply (r : Fin 512) (d : Fin 64) :
    tile0 (F := Ideal) x0 x1 x2 (ix3 (0 : Fin 1) r d) = headOut (head1 x0) (head1 x1) (head1 x2) (row 0 r) d := by
  unfold tile0 headOut
  rw [finishT_apply, accStep_apply, normStep_apply, zero64_apply, zero1_apply, num_tile0, den_tile0,
    chunk_diag_num (head1 x0) (head1 x1) (head1 x2) 0 0#32 (by decide) _ _ _ (ld_r0_0 x0) (ld_r0_0 x1) (ld_r0_0 x2),
    chunk_diag_den (head1 x0) (head1 x1) 0 0#32 (by decide) _ _ (ld_r0_0 x0) (ld_r0_0 x1)]

theorem tile1_apply (r : Fin 512) (d : Fin 64) :
    tile1 (F := Ideal) x0 x1 x2 (ix3 (0 : Fin 1) r d) = headOut (head1 x0) (head1 x1) (head1 x2) (row 1 r) d := by
  unfold tile1 headOut
  rw [finishT_apply, accStep_apply, accStep_apply, normStep_apply, normStep_apply, zero64_apply, zero1_apply, num_tile1, den_tile1,
    chunk_off_num (head1 x0) (head1 x1) (head1 x2) 1 0 _ _ _ (ld_r0_1 x0) (ld_r0_0 x1) (ld_r0_0 x2) (by decide),
    chunk_off_den (head1 x0) (head1 x1) 1 0 _ _ (ld_r0_1 x0) (ld_r0_0 x1) (by decide),
    chunk_diag_num (head1 x0) (head1 x1) (head1 x2) 1 512#32 (by decide) _ _ _ (ld_r0_1 x0) (ld_r0_1 x1) (ld_r0_1 x2),
    chunk_diag_den (head1 x0) (head1 x1) 1 512#32 (by decide) _ _ (ld_r0_1 x0) (ld_r0_1 x1)]

theorem tile2_apply (r : Fin 512) (d : Fin 64) :
    tile2 (F := Ideal) x0 x1 x2 (ix3 (0 : Fin 1) r d) = headOut (head1 x0) (head1 x1) (head1 x2) (row 2 r) d := by
  unfold tile2 headOut
  rw [finishT_apply, accStep_apply, accStep_apply, accStep_apply, normStep_apply, normStep_apply, normStep_apply,
    zero64_apply, zero1_apply, num_tile2, den_tile2,
    chunk_off_num (head1 x0) (head1 x1) (head1 x2) 2 0 _ _ _ (ld_r0_2 x0) (ld_r0_0 x1) (ld_r0_0 x2) (by decide),
    chunk_off_den (head1 x0) (head1 x1) 2 0 _ _ (ld_r0_2 x0) (ld_r0_0 x1) (by decide),
    chunk_off_num (head1 x0) (head1 x1) (head1 x2) 2 1 _ _ _ (ld_r0_2 x0) (ld_r0_1 x1) (ld_r0_1 x2) (by decide),
    chunk_off_den (head1 x0) (head1 x1) 2 1 _ _ (ld_r0_2 x0) (ld_r0_1 x1) (by decide),
    chunk_diag_num (head1 x0) (head1 x1) (head1 x2) 2 1024#32 (by decide) _ _ _ (ld_r0_2 x0) (ld_r0_2 x1) (ld_r0_2 x2),
    chunk_diag_den (head1 x0) (head1 x1) 2 1024#32 (by decide) _ _ (ld_r0_2 x0) (ld_r0_2 x1)]

theorem tile3_apply (r : Fin 512) (d : Fin 64) :
    tile3 (F := Ideal) x0 x1 x2 (ix3 (0 : Fin 1) r d) = headOut (head1 x0) (head1 x1) (head1 x2) (row 3 r) d := by
  unfold tile3 headOut
  rw [finishT_apply, accStep_apply, accStep_apply, accStep_apply, accStep_apply,
    normStep_apply, normStep_apply, normStep_apply, normStep_apply, zero64_apply, zero1_apply, num_tile3, den_tile3,
    chunk_off_num (head1 x0) (head1 x1) (head1 x2) 3 0 _ _ _ (ld_r0_3 x0) (ld_r0_0 x1) (ld_r0_0 x2) (by decide),
    chunk_off_den (head1 x0) (head1 x1) 3 0 _ _ (ld_r0_3 x0) (ld_r0_0 x1) (by decide),
    chunk_off_num (head1 x0) (head1 x1) (head1 x2) 3 1 _ _ _ (ld_r0_3 x0) (ld_r0_1 x1) (ld_r0_1 x2) (by decide),
    chunk_off_den (head1 x0) (head1 x1) 3 1 _ _ (ld_r0_3 x0) (ld_r0_1 x1) (by decide),
    chunk_off_num (head1 x0) (head1 x1) (head1 x2) 3 2 _ _ _ (ld_r0_3 x0) (ld_r0_2 x1) (ld_r0_2 x2) (by decide),
    chunk_off_den (head1 x0) (head1 x1) 3 2 _ _ (ld_r0_3 x0) (ld_r0_2 x1) (by decide),
    chunk_diag_num (head1 x0) (head1 x1) (head1 x2) 3 1536#32 (by decide) _ _ _ (ld_r0_3 x0) (ld_r0_3 x1) (ld_r0_3 x2),
    chunk_diag_den (head1 x0) (head1 x1) 3 1536#32 (by decide) _ _ (ld_r0_3 x0) (ld_r0_3 x1)]

end Cert.KernelIdeal.Tile

end
-- ==== Proof.Block.lean ====
/-
  One head's block: what the body leaves in the output block is the head's attention output, row by
  row — numerator over denominator plus ε — as the specification's `out1` of the three input blocks.

  The block is stored as four tiles of 512 rows that tile it; tile qi at local row r holds the output at
  row 512·qi + r (Proof/Tile.lean), which is `out1` at the tile's rectangle's image of that local index. A
  list of pieces that all agree with one function and cover the block reads as that function.
-/
import proofs.«429157_j29240137351230_3_alg».proof.Proof.Tile

set_option maxRecDepth 16384

noncomputable section

namespace Cert.KernelIdeal.Block

open Idealize.ShloMosaic Idealize.ShloMosaic.TcCoe Idealize.SL.Sem Idealize.ShloMosaic.ValueIdx
open Cert.KernelIdeal Cert.KernelIdeal.Gen Cert.KernelIdeal.Steps Cert.KernelIdeal.Tile Cert.BasedAttn

variable (x0 x1 x2 : Vec Ideal S1x2048x64 .f32)

/-! ## The specification at a tile's rows -/

theorem out1_emb_0 (r : Fin 512) (d : Fin 64) :
    out1 x0 x1 x2 (r0_0.emb (ix3 (0 : Fin 1) r d)) = headOut (head1 x0) (head1 x1) (head1 x2) (row 0 r) d := by
  unfold Cert.BasedAttn.out1
  exact congrArg₂ (headOut (head1 x0) (head1 x1) (head1 x2))
    (Fin.ext (by show 0 + 1 * r.val = 512 * 0 + r.val; omega)) (Fin.ext (by show 0 + 1 * d.val = d.val; omega))
theorem out1_emb_1 (r : Fin 512) (d : Fin 64) :
    out1 x0 x1 x2 (r0_1.emb (ix3 (0 : Fin 1) r d)) = headOut (head1 x0) (head1 x1) (head1 x2) (row 1 r) d := by
  unfold Cert.BasedAttn.out1
  exact congrArg₂ (headOut (head1 x0) (head1 x1) (head1 x2))
    (Fin.ext (by show 512 + 1 * r.val = 512 * 1 + r.val; omega)) (Fin.ext (by show 0 + 1 * d.val = d.val; omega))
theorem out1_emb_2 (r : Fin 512) (d : Fin 64) :
    out1 x0 x1 x2 (r0_2.emb (ix3 (0 : Fin 1) r d)) = headOut (head1 x0) (head1 x1) (head1 x2) (row 2 r) d := by
  unfold Cert.BasedAttn.out1
  exact congrArg₂ (headOut (head1 x0) (head1 x1) (head1 x2))
    (Fin.ext (by show 1024 + 1 * r.val = 512 * 2 + r.val; omega)) (Fin.ext (by show 0 + 1 * d.val = d.val; omega))
theorem out1_emb_3 (r : Fin 512) (d : Fin 64) :
    out1 x0 x1 x2 (r0_3.emb (ix3 (0 : Fin 1) r d)) = headOut (head1 x0) (head1 x1) (head1 x2) (row 3 r) d := by
  unfold Cert.BasedAttn.out1
  exact congrArg₂ (headOut (head1 x0) (head1 x1) (head1 x2))
    (Fin.ext (by show 1536 + 1 * r.val = 512 * 3 + r.val; omega)) (Fin.ext (by show 0 + 1 * d.val = d.val; omega))

/-- Every index of a [1,512,64] tile is (0, r, d). -/
theorem tile_idx (x : S1x512x64.Idx) : ∃ (r : Fin 512) (d : Fin 64), x = ix3 (0 : Fin 1) r d := by
  have hlt : (x 0).val < 1 := (x 0).isLt
  exact ⟨x 1, x 2, (eq_ix3 x).trans (congrArg (fun u : Fin 1 => (ix3 u (x 1) (x 2) : S1x512x64.Idx))
    (Fin.ext (by show (x 0).val = 0; omega)))⟩

/-- The output block after the body, as one function of the three input blocks. -/
theorem out0_3_eq (x0 x1 x2 : Vec Ideal S1x2048x64 .f32) :
    out0_3 (F := Ideal) x0 x1 x2 = Cert.BasedAttn.out1 x0 x1 x2 := by
  rw [block_eq]
  funext y
  refine View.canon_apply_of_pieces (Val := Elt Ideal) (S := S1x2048x64) (e := .f32) (Cert.BasedAttn.out1 x0 x1 x2) _ ?_ y
    (cover0_3 _ _ _ _ y)
  intro p hp x
  simp only [List.mem_cons, List.mem_nil_iff, or_false] at hp
  rcases hp with rfl | rfl | rfl | rfl
  · obtain ⟨r, d, rfl⟩ := tile_idx x
    exact (tile3_apply x0 x1 x2 r d).trans (out1_emb_3 x0 x1 x2 r d).symm
  · obtain ⟨r, d, rfl⟩ := tile_idx x
    exact (tile2_apply x0 x1 x2 r d).trans (out1_emb_2 x0 x1 x2 r d).symm
  · obtain ⟨r, d, rfl⟩ := tile_idx x
    exact (tile1_apply x0 x1 x2 r d).trans (out1_emb_1 x0 x1 x2 r d).symm
  · obtain ⟨r, d, rfl⟩ := tile_idx x
    exact (tile0_apply x0 x1 x2 r d).trans (out1_emb_0 x0 x1 x2 r d).symm

end Cert.KernelIdeal.Block

end
-- ==== Proof.KernelRun.lean ====
/-
  The idealized kernel's run, read: the 32 grid points each write one head's block of the stacked output
  [32,2048,64]; the blocks tile the stack, so after the run the stack holds every head's attention output;
  the arguments reach the region reshaped [2,16,2048,64] → [32,2048,64] (head g = 16·b + h) and the result
  leaves it reshaped back, so the program's result is the specification's `out4` of its arguments.
-/
import proofs.«429157_j29240137351230_3_alg».proof.Proof.Block
import Idealize.ShloMosaic.Lib.Pipeline.Value
import Idealize.ShloMosaic.Lib.ValueIdx
import Idealize.ShloMosaic.Lib.StableHlo.Run

set_option maxRecDepth 16384

noncomputable section

namespace Cert.KernelIdeal.Run

open Idealize.ShloMosaic Idealize.ShloMosaic.TcCoe Idealize.SL.Sem Idealize.ShloMosaic.ValueIdx
open Cert.KernelIdeal Cert.KernelIdeal.Gen

section Lemmas

variable (m : (ℓ : Loc nD τ sig) → Buf (Elt Ideal) ℓ)

/-! ## The index maps: point t moves every window to block (t, 0, 0) -/

/-- The four index maps send point t to block (t, 0, 0) (decided over the 32 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- A grid point as a head of the stack. -/
def pt (t : Fin cfg0.N) : Fin 32 := ⟨t.val, lt_of_lt_of_eq t.isLt N_0⟩

/-- Row i, feature d of point t's block sits in the stack at head t, row i, feature d: window 0 … -/
theorem emb0 (t : Fin cfg0.N) (u : Fin 1) (i : Fin 2048) (d : Fin 64) :
    ((cfg0.win 0).blk t).view.emb (ix3 u i d) = ix3 (pt t) i d := by
  obtain ⟨⟨e0, e1, e2⟩, -⟩ := idx_facts t
  funext a; apply Fin.ext
  match a with
  | ⟨0, _⟩ => show win0_0.index t (0 : Fin 3) * 1 + 1 * u.val = t.val; omega
  | ⟨1, _⟩ => show win0_0.index t (1 : Fin 3) * 2048 + 1 * i.val = i.val; omega
  | ⟨2, _⟩ => show win0_0.index t (2 : Fin 3) * 64 + 1 * d.val = d.val; omega
/-- … window 1 … -/
theorem emb1 (t : Fin cfg0.N) (u : Fin 1) (i : Fin 2048) (d : Fin 64) :
    ((cfg0.win 1).blk t).view.emb (ix3 u i d) = ix3 (pt t) i d := by
  obtain ⟨-, ⟨e0, e1, e2⟩, -⟩ := idx_facts t
  funext a; apply Fin.ext
  match a with
  | ⟨0, _⟩ => show win0_1.index t (0 : Fin 3) * 1 + 1 * u.val = t.val; omega
  | ⟨1, _⟩ => show win0_1.index t (1 : Fin 3) * 2048 + 1 * i.val = i.val; omega
  | ⟨2, _⟩ => show win0_1.index t (2 : Fin 3) * 64 + 1 * d.val = d.val; omega
/-- … window 2 … -/
theorem emb2 (t : Fin cfg0.N) (u : Fin 1) (i : Fin 2048) (d : Fin 64) :
    ((cfg0.win 2).blk t).view.emb (ix3 u i d) = ix3 (pt t) i d := by
  obtain ⟨-, -, ⟨e0, e1, e2⟩, -⟩ := idx_facts t
  funext a; apply Fin.ext
  match a with
  | ⟨0, _⟩ => show win0_2.index t (0 : Fin 3) * 1 + 1 * u.val = t.val; omega
  | ⟨1, _⟩ => show win0_2.index t (1 : Fin 3) * 2048 + 1 * i.val = i.val; omega
  | ⟨2, _⟩ => show win0_2.index t (2 : Fin 3) * 64 + 1 * d.val = d.val; omega
/-- … and the output window. -/
theorem emb3 (t : Fin cfg0.N) (u : Fin 1) (i : Fin 2048) (d : Fin 64) :
    ((cfg0.win 3).blk t).view.emb (ix3 u i d) = ix3 (pt t) i d := by
  obtain ⟨-, -, -, ⟨e0, e1, e2⟩⟩ := idx_facts t
  funext a; apply Fin.ext
  match a with
  | ⟨0, _⟩ => show win0_3.index t (0 : Fin 3) * 1 + 1 * u.val = t.val; omega
  | ⟨1, _⟩ => show win0_3.index t (1 : Fin 3) * 2048 + 1 * i.val = i.val; omega
  | ⟨2, _⟩ => show win0_3.index t (2 : Fin 3) * 64 + 1 * d.val = d.val; omega

/-! ## The blocks of point t are head t of the stacks -/

/-- The three input blocks at point t, at their literal type. -/
abbrev qblk (c : Dev nD) (t : Fin cfg0.N) : Vec Ideal S1x2048x64 .f32 := iblk m c 0 t
abbrev kblk (c : Dev nD) (t : Fin cfg0.N) : Vec Ideal S1x2048x64 .f32 := iblk m c 1 t
abbrev vblk (c : Dev nD) (t : Fin cfg0.N) : Vec Ideal S1x2048x64 .f32 := iblk m c 2 t

/-- The query block at point t is head t of the query stack … -/
theorem head_q (c : Dev nD) (t : Fin cfg0.N) :
    Cert.BasedAttn.head1 (qblk m c t) = Cert.BasedAttn.head3 (V m c main_v0) (pt t) := by
  funext i e
  show V m c main_v0 (((cfg0.win 0).blk t).view.emb (ix3 (0 : Fin 1) i e)) = V m c main_v0 (ix3 (pt t) i e)
  rw [emb0]
/-- … the key block head t of the key stack … -/
theorem head_k (c : Dev nD) (t : Fin cfg0.N) :
    Cert.BasedAttn.head1 (kblk m c t) = Cert.BasedAttn.head3 (V m c main_v1) (pt t) := by
  funext i e
  show V m c main_v1 (((cfg0.win 1).blk t).view.emb (ix3 (0 : Fin 1) i e)) = V m c main_v1 (ix3 (pt t) i e)
  rw [emb1]
/-- … and the value block head t of the value stack. -/
theorem head_v (c : Dev nD) (t : Fin cfg0.N) :
    Cert.BasedAttn.head1 (vblk m c t) = Cert.BasedAttn.head3 (V m c main_v2) (pt t) := by
  funext i e
  show V m c main_v2 (((cfg0.win 2).blk t).view.emb (ix3 (0 : Fin 1) i e)) = V m c main_v2 (ix3 (pt t) i e)
  rw [emb2]

/-- What point t writes back is block t of the stack of the heads' outputs. -/
theorem flushed_eq (c : Dev nD) (t : Fin cfg0.N) :
    (dats m 0 c).flushed 3 t = ((cfg0.win 3).blk t).view.read (Elt Ideal)
      (Cert.BasedAttn.out3 (V m c main_v0) (V m c main_v1) (V m c main_v2)) := by
  show (cfg0.win 3).cut (grid0.coords t) ((dats m 0 c).after 3 t) = _
  rw [after0_3, Cert.KernelIdeal.Block.out0_3_eq]
  funext y
  obtain ⟨u, i, d, rfl⟩ : ∃ (u : Fin 1) (i : Fin 2048) (d : Fin 64), y = ix3 u i d := ⟨y 0, y 1, y 2, eq_ix3 y⟩
  show Cert.BasedAttn.out1 (qblk m c t) (kblk m c t) (vblk m c t) (ix3 u i d)
    = Cert.BasedAttn.out3 (V m c main_v0) (V m c main_v1) (V m c main_v2) (((cfg0.win 3).blk t).view.emb (ix3 u i d))
  rw [emb3, Cert.BasedAttn.out3_ix3, Fin.fin_one_eq_zero u, Cert.BasedAttn.out1_ix3, head_q, head_k, head_v]

/-! ## The 32 blocks tile the stack -/

/-- An index of the stack is in point t's block iff each coordinate is in the block's range on its axis. -/
theorem mem_blk (t : Fin cfg0.N) (i : S32x2048x64.Idx) :
    i ∈ ((cfg0.win 3).blk t).view.set ↔ ∀ a : Fin 3, win0_3.index t a * S1x2048x64.size a ≤ (i a).val ∧ (i a).val < win0_3.index t a * S1x2048x64.size a + S1x2048x64.size a := by
  show i ∈ ((View.whole main_v3).slice (win0_3.rect t)).set ↔ _
  rw [View.set_slice_whole, Rect.mem_set_unit]
  exact Iff.rfl

/-- Every index of the stack is in the block of the point its head names. -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  let t : Fin cfg0.N := ⟨(i 0).val, lt_of_lt_of_eq hi0 N_0.symm⟩
  obtain ⟨-, -, -, ⟨e0, e1, e2⟩⟩ := idx_facts t
  have ht : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- The output stack after the run: every head's attention output. -/
theorem final (c : Dev nD) :
    (dats m 0 c).arrAt 3 cfg0.N = Cert.BasedAttn.out3 (V m c main_v0) (V m c main_v1) (V m c main_v2) :=
  (dats m 0 c).arrAt_eq_of_cover 3 _ (fun t _ => flushed_eq m c t) cover

/-! ## The reshapes: head g = 16 b + h of the stack is head (b, h) of the problem -/

/-- The stack of heads read off the whole problem. -/
theorem stack_apply (x : S2x16x2048x64.Idx → EReal) (b : Fin 2) (h : Fin 16) (g : Fin 32) (hg : g.val = 16 * b.val + h.val)
    (i : Fin 2048) (e : Fin 64) :
    shapeCast S32x2048x64 x shapeCasts_S2x16x2048x64_S32x2048x64 (ix3 g i e) = x (ix4 b h i e) := by
  refine shapeCast_apply x _ (ix3 g i e) (ix4 b h i e) ?_
  rw [Shape.rowMajor_val_three, Shape.rowMajor_val_four]
  show (((b.val * 16 + h.val) * 2048 + i.val) * 64 + e.val) = ((g.val * 2048 + i.val) * 64 + e.val)
  rw [hg]; ring

/-- The whole problem read off the stack of heads. -/
theorem unstack_apply (x : S32x2048x64.Idx → EReal) (b : Fin 2) (h : Fin 16) (g : Fin 32) (hg : g.val = 16 * b.val + h.val)
    (i : Fin 2048) (e : Fin 64) :
    shapeCast S2x16x2048x64 x shapeCasts_S32x2048x64_S2x16x2048x64 (ix4 b h i e) = x (ix3 g i e) := by
  refine shapeCast_apply x _ (ix4 b h i e) (ix3 g i e) ?_
  rw [Shape.rowMajor_val_three, Shape.rowMajor_val_four]
  show ((g.val * 2048 + i.val) * 64 + e.val) = (((b.val * 16 + h.val) * 2048 + i.val) * 64 + e.val)
  rw [hg]; ring

/-- The query stack the region finds is the query argument reshaped … -/
theorem V_v0 (c : Dev nD) : (V m c main_v0 : S32x2048x64.Idx → EReal)
    = shapeCast S32x2048x64 (m ((c.tc : Thread nD τ).loc main_arg0)) shapeCasts_S2x16x2048x64_S32x2048x64 := by
  show StableHlo.after hostOps0 (fun b => m (c, b)) (Proc.devRef .tc main_v0) = _
  after_results
  rfl
/-- … the key stack the key argument reshaped … -/
theorem V_v1 (c : Dev nD) : (V m c main_v1 : S32x2048x64.Idx → EReal)
    = shapeCast S32x2048x64 (m ((c.tc : Thread nD τ).loc main_arg1)) shapeCasts_S2x16x2048x64_S32x2048x64 := by
  show StableHlo.after hostOps0 (fun b => m (c, b)) (Proc.devRef .tc main_v1) = _
  after_results
  rfl
/-- … and the value stack the value argument reshaped. -/
theorem V_v2 (c : Dev nD) : (V m c main_v2 : S32x2048x64.Idx → EReal)
    = shapeCast S32x2048x64 (m ((c.tc : Thread nD τ).loc main_arg2)) shapeCasts_S2x16x2048x64_S32x2048x64 := by
  show StableHlo.after hostOps0 (fun b => m (c, b)) (Proc.devRef .tc main_v2) = _
  after_results
  rfl

/-- Head 16 b + h of a reshaped argument is head (b, h) of the argument. -/
theorem head3_stack (x : S2x16x2048x64.Idx → EReal) (b : Fin 2) (h : Fin 16) (g : Fin 32) (hg : g.val = 16 * b.val + h.val) :
    Cert.BasedAttn.head3 (shapeCast S32x2048x64 x shapeCasts_S2x16x2048x64_S32x2048x64) g = Cert.BasedAttn.head4 x b h := by
  funext i e
  exact stack_apply x b h g hg i e

/-- The stack of the heads' outputs over the reshaped arguments, reshaped back, is the specification over the arguments. -/
theorem unstack_out3 (q k v : S2x16x2048x64.Idx → EReal) :
    shapeCast S2x16x2048x64 (Cert.BasedAttn.out3 (shapeCast S32x2048x64 q shapeCasts_S2x16x2048x64_S32x2048x64)
        (shapeCast S32x2048x64 k shapeCasts_S2x16x2048x64_S32x2048x64) (shapeCast S32x2048x64 v shapeCasts_S2x16x2048x64_S32x2048x64))
      shapeCasts_S32x2048x64_S2x16x2048x64 = Cert.BasedAttn.out4 q k v := by
  funext j
  obtain ⟨b, h, i, d, rfl⟩ : ∃ (b : Fin 2) (h : Fin 16) (i : Fin 2048) (d : Fin 64), j = ix4 b h i d := ⟨j 0, j 1, j 2, j 3, eq_ix4 j⟩
  have hb : b.val < 2 := b.isLt
  have hh : h.val < 16 := h.isLt
  have hg : (⟨16 * b.val + h.val, by omega⟩ : Fin 32).val = 16 * b.val + h.val := rfl
  rw [unstack_apply _ b h ⟨16 * b.val + h.val, by omega⟩ hg, Cert.BasedAttn.out3_ix3, Cert.BasedAttn.out4_ix4,
    head3_stack q b h _ hg, head3_stack k b h _ hg, head3_stack v b h _ hg]

/-! ## The result buffer -/

/-- The result buffer after the lines that follow the region: the output stack reshaped back. -/
theorem tail_v4 (c : Dev nD) :
    Pipeline.afterTail₀ cfgs (dats m) 0 (V0 m) [hostOps1] c main_v4
      = Cert.BasedAttn.out4 (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v4) = _
  after_results
  have e3 := (Pipeline.withArrays_arr spec0 launch0.win.arr_inj c (V0 m c) (fun w => (dats m 0 c).arrAt w cfg0.N) 3).trans (final m c)
  rw [V_v0, V_v1, V_v2] at e3
  refine Eq.trans ?_ (unstack_out3 _ _ _)
  exact congrArg (fun x : S32x2048x64.Idx → EReal => shapeCast S2x16x2048x64 x shapeCasts_S32x2048x64_S2x16x2048x64) e3

end Lemmas

/-! ## The run, read -/

/-- Every weakly fair execution of the idealized kernel ends with the result array at the specification of the
    arguments as launched, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.BasedAttn.out4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.lean ====
/-
  Based (Taylor-polynomial) causal linear attention: a flash-style tiled kernel against its plain reference,
  equal over the extended reals.

  Both programs compute, for every head, row i and feature d,
      out i d = (∑_{j ≤ i} p(s i j) · v j d) / (∑_{j ≤ i} p(s i j) + ε),   s i j = (q i · k j) · c,   p(s) = (1 + s) + (½ s) s.
  The reference forms the full 2048 × 2048 weight matrix of a head, zeroes it above the diagonal and sums each
  row whole; the kernel walks each head in four tiles of 512 query rows, visiting only the key/value chunks on
  or below the diagonal and masking the diagonal chunk, accumulating numerator and denominator from zero. The
  two agree because a masked entry is exactly zero, so the row sums regroup by chunks and the chunks above the
  diagonal vanish (associativity of addition and 0 · x = 0 on the extended reals: no finiteness is used), and
  because the reference's scale 1 / √64 is exactly the kernel's constant 0.125. Narrowing to bf16 before the
  matrix products is the identity on extended reals; `preserves` records the ten places where the idealized
  kernel dropped such a round trip.

  Proof/Spec.lean states the common function and the chunk regrouping; Proof/RefValue.lean reads the reference's
  run as that function; Proof/Steps.lean, StepsAt.lean, Tile.lean and Block.lean read one head's block of the
  kernel as it; Proof/KernelRun.lean carries the blocks to the whole array through the reshapes around the call.
-/
import proofs.«429157_j29240137351230_3_alg».proof.Defs
import proofs.«429157_j29240137351230_3_alg».proof.Proof.Gen.Kernel
import proofs.«429157_j29240137351230_3_alg».proof.Proof.Gen.Kernel.Skeleton
import proofs.«429157_j29240137351230_3_alg».proof.Proof.Gen.Kernel.Launch
import proofs.«429157_j29240137351230_3_alg».proof.Proof.Gen.Kernel.Points
import proofs.«429157_j29240137351230_3_alg».proof.Proof.Gen.Kernel.Frame
import proofs.«429157_j29240137351230_3_alg».proof.Proof.Gen.KernelIdeal
import proofs.«429157_j29240137351230_3_alg».proof.Proof.Gen.KernelIdeal.Skeleton
import proofs.«429157_j29240137351230_3_alg».proof.Proof.Gen.KernelIdeal.Launch
import proofs.«429157_j29240137351230_3_alg».proof.Proof.Gen.KernelIdeal.Points
import proofs.«429157_j29240137351230_3_alg».proof.Proof.Gen.KernelIdeal.Frame
import proofs.«429157_j29240137351230_3_alg».proof.Proof.Gen.ReferenceIdeal
import proofs.«429157_j29240137351230_3_alg».proof.Proof.Gen.Pre_finite_inputs
import proofs.«429157_j29240137351230_3_alg».proof.Proof.Gen.ReferenceIdeal.Run
import proofs.«429157_j29240137351230_3_alg».proof.Proof.Gen.ReferenceIdeal.Read
import proofs.«429157_j29240137351230_3_alg».proof.Proof.RefValue
import proofs.«429157_j29240137351230_3_alg».proof.Proof.KernelRun
import Idealize.ShloMosaic.Adequacy
import Idealize.ShloMosaic.Init

noncomputable section

namespace Cert.Proof

open Idealize.ShloMosaic Idealize.SL.Sem

/-- Both kernels run, fault-free, with their arguments unchanged: the generated frames. -/
theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ten places where the weights, narrowed to bf16 for the second matrix product, were widened back for
    the row sum: on extended reals the round trip is the identity. -/
theorem preserves : Cert.preserves_Kernel_KernelIdeal :=
  ⟨IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16⟩

/-- Both idealized programs end with the specification's `out4` of arguments that agree. -/
theorem algebraic : Cert.algebraic_KernelIdeal_ReferenceIdeal := by
  intro m ρ m' ρ' _ hagree
  refine ⟨fun c => Cert.BasedAttn.out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
